-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x128x128 : Shape := ⟨4, ![16, 512, 128, 128]⟩
abbrev S16x128x128 : Shape := ⟨3, ![16, 128, 128]⟩
abbrev S_ : Shape := ⟨0, ![]⟩

class Facts : Prop where
  bcast_S_S16x512x128x128 : S_.BroadcastsInDim S16x512x128x128 (![] : Fin 0 → Fin S16x512x128x128.rank)
  reducesTo_S16x512x128x128_S_d0_1_2_3 : S16x512x128x128.ReducesTo [0, 1, 2, 3] S_
  h_S_ : 0 < S_.numel

variable [Facts]

def fn {F : FTy → Type} [FloatOps F] (main_arg0 : FVec F S16x512x128x128 .f32) (main_arg1 : IVec S16x128x128 32) : IVec S_ 1 :=
  let main_v0 : FVec F S16x512x128x128 .f32 := Host.absf main_arg0
  let main_cst : FVec F S_ .f32 := constant S_ .f32 0x7F800000#32
  let main_v1 : FVec F S16x512x128x128 .f32 := broadcastInDim S16x512x128x128 ![] bcast_S_S16x512x128x128 main_cst
  let main_v2 : IVec S16x512x128x128 1 := cmpf .olt main_v0 main_v1
  let main_c : IVec S_ 1 := constantI S_ 1 1#1
  let main_v3 : IVec S_ 1 := (fun x v => Host.reduce IntOp.andi x v reducesTo_S16x512x128x128_S_d0_1_2_3 h_S_) main_v2 main_c
  main_v3
-- ==== Kernel.lean ====
abbrev S16x512x128x128 : Shape := ⟨4, ![16, 512, 128, 128]⟩
abbrev S16x128x128 : Shape := ⟨3, ![16, 128, 128]⟩
abbrev S16x16384 : Shape := ⟨2, ![16, 16384]⟩
abbrev S_ : Shape := ⟨0, ![]⟩
abbrev S16x16384x1 : Shape := ⟨3, ![16, 16384, 1]⟩
abbrev S1x1x19 : Shape := ⟨3, ![1, 1, 19]⟩
abbrev S16x16384x19 : Shape := ⟨3, ![16, 16384, 19]⟩
abbrev S16x19x16384 : Shape := ⟨3, ![16, 19, 16384]⟩
abbrev S16x1x16384 : Shape := ⟨3, ![16, 1, 16384]⟩
abbrev S16x19 : Shape := ⟨2, ![16, 19]⟩
abbrev S16x19x1 : Shape := ⟨3, ![16, 19, 1]⟩
abbrev S16x512x16384 : Shape := ⟨3, ![16, 512, 16384]⟩
abbrev S16x512x19x1 : Shape := ⟨4, ![16, 512, 19, 1]⟩
abbrev S1x128x16384 : Shape := ⟨3, ![1, 128, 16384]⟩
abbrev S1x19x16384 : Shape := ⟨3, ![1, 19, 16384]⟩
abbrev S1x128x19x1 : Shape := ⟨4, ![1, 128, 19, 1]⟩
abbrev S128x16384 : Shape := ⟨2, ![128, 16384]⟩
abbrev S19x16384 : Shape := ⟨2, ![19, 16384]⟩
abbrev S128x19 : Shape := ⟨2, ![128, 19]⟩

abbrev nBuf : Space → Nat
  | .hbm => 41
  | .vmem => 6
  | .smem => 0
  | _ => 0

abbrev bufTy : (tb : Table) → Fin (tcTables nBuf tb) → BufTy
  | .hbm, ⟨0, _⟩ => ⟨S16x512x128x128, .f32⟩
  | .hbm, ⟨1, _⟩ => ⟨S16x128x128, .i32⟩
  | .hbm, ⟨2, _⟩ => ⟨S16x16384, .i32⟩
  | .hbm, ⟨3, _⟩ => ⟨S_, .i32⟩
  | .hbm, ⟨4, _⟩ => ⟨S16x16384, .i32⟩
  | .hbm, ⟨5, _⟩ => ⟨S16x16384, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S16x16384, .i32⟩
  | .hbm, ⟨10, _⟩ => ⟨S16x16384, .i32⟩
  | .hbm, ⟨11, _⟩ => ⟨S_, .i32⟩
  | .hbm, ⟨12, _⟩ => ⟨S16x16384, .i32⟩
  | .hbm, ⟨13, _⟩ => ⟨S16x16384, .i32⟩
  | .hbm, ⟨14, _⟩ => ⟨S16x16384x1, .i32⟩
  | .hbm, ⟨15, _⟩ => ⟨S1x1x19, .i32⟩
  | .hbm, ⟨16, _⟩ => ⟨S16x16384x19, .i32⟩
  | .hbm, ⟨17, _⟩ => ⟨S16x16384x19, .i32⟩
  | .hbm, ⟨18, _⟩ => ⟨S16x16384x19, .i1⟩
  | .hbm, ⟨19, _⟩ => ⟨S16x16384x19, .f32⟩
  | .hbm, ⟨20, _⟩ => ⟨S16x19x16384, .f32⟩
  | .hbm, ⟨21, _⟩ => ⟨S16x1x16384, .i1⟩
  | .hbm, ⟨22, _⟩ => ⟨S_, .f32⟩
  | .hbm, ⟨23, _⟩ => ⟨S_, .f32⟩
  | .hbm, ⟨24, _⟩ => ⟨S16x19x16384, .i1⟩
  | .hbm, ⟨25, _⟩ => ⟨S16x19x16384, .f32⟩
  | .hbm, ⟨26, _⟩ => ⟨S16x19x16384, .f32⟩
  | .hbm, ⟨27, _⟩ => ⟨S_, .f32⟩
  | .hbm, ⟨28, _⟩ => ⟨S16x19, .f32⟩
  | .hbm, ⟨29, _⟩ => ⟨S16x19x1, .f32⟩
  | .hbm, ⟨30, _⟩ => ⟨S_, .f32⟩
  | .hbm, ⟨31, _⟩ => ⟨S16x19x1, .f32⟩
  | .hbm, ⟨32, _⟩ => ⟨S16x19x1, .i1⟩
  | .hbm, ⟨33, _⟩ => ⟨S_, .f32⟩
  | .hbm, ⟨34, _⟩ => ⟨S_, .f32⟩
  | .hbm, ⟨35, _⟩ => ⟨S16x19x1, .f32⟩
  | .hbm, ⟨36, _⟩ => ⟨S16x19x1, .f32⟩
  | .hbm, ⟨37, _⟩ => ⟨S16x19x16384, .f32⟩
  | .hbm, ⟨38, _⟩ => ⟨S16x19x16384, .f32⟩
  | .hbm, ⟨39, _⟩ => ⟨S16x512x16384, .f32⟩
  | .hbm, ⟨40, _⟩ => ⟨S16x512x19x1, .f32⟩
  | .local _ .vmem, ⟨0, _⟩ => ⟨S1x128x16384, .f32⟩
  | .local _ .vmem, ⟨1, _⟩ => ⟨S1x128x16384, .f32⟩
  | .local _ .vmem, ⟨2, _⟩ => ⟨S1x19x16384, .f32⟩
  | .local _ .vmem, ⟨3, _⟩ => ⟨S1x19x16384, .f32⟩
  | .local _ .vmem, ⟨4, _⟩ => ⟨S1x128x19x1, .f32⟩
  | .local _ .vmem, ⟨5, _⟩ => ⟨S1x128x19x1, .f32⟩
  | _, _ => ⟨S16x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_call3_v0 : Ref sig .tc := ⟨.hbm, 34, rfl⟩
abbrev main_call3_v1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x19x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x19x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16x128x128_S16x16384 : S16x128x128.ShapeCasts S16x16384
  bcast_S_S16x16384 : S_.BroadcastsInDim S16x16384 (![] : Fin 0 → Fin S16x16384.rank)
  bcast_S16x16384_S16x16384x1_0_1 : S16x16384.BroadcastsInDim S16x16384x1 (![0, 1] : Fin 2 → Fin S16x16384x1.rank)
  bcast_S16x16384x1_S16x16384x19_0_1_2 : S16x16384x1.BroadcastsInDim S16x16384x19 (![0, 1, 2] : Fin 3 → Fin S16x16384x19.rank)
  bcast_S1x1x19_S16x16384x19_0_1_2 : S1x1x19.BroadcastsInDim S16x16384x19 (![0, 1, 2] : Fin 3 → Fin S16x16384x19.rank)
  transposes_S16x16384x19_S16x19x16384_0_2_1 : S16x16384x19.Transposes [0, 2, 1] S16x19x16384
  bcast_S16x16384_S16x1x16384_0_2 : S16x16384.BroadcastsInDim S16x1x16384 (![0, 2] : Fin 2 → Fin S16x1x16384.rank)
  bcast_S16x1x16384_S16x19x16384_0_1_2 : S16x1x16384.BroadcastsInDim S16x19x16384 (![0, 1, 2] : Fin 3 → Fin S16x19x16384.rank)
  bcast_S_S16x19x16384 : S_.BroadcastsInDim S16x19x16384 (![] : Fin 0 → Fin S16x19x16384.rank)
  reducesTo_S16x19x16384_S16x19_d2 : S16x19x16384.ReducesTo [2] S16x19
  h_S_ : 0 < S_.numel
  bcast_S16x19_S16x19x1_0_1 : S16x19.BroadcastsInDim S16x19x1 (![0, 1] : Fin 2 → Fin S16x19x1.rank)
  bcast_S_S16x19x1 : S_.BroadcastsInDim S16x19x1 (![] : Fin 0 → Fin S16x19x1.rank)
  bcast_S16x19x1_S16x19x16384_0_1_2 : S16x19x1.BroadcastsInDim S16x19x16384 (![0, 1, 2] : Fin 3 → Fin S16x19x16384.rank)
  shapeCasts_S16x512x128x128_S16x512x16384 : S16x512x128x128.ShapeCasts S16x512x16384
  inb_S1x128x16384_S1x128x16384_0_0_0 : ∀ a, (![0, 0, 0] : Fin 3 → Nat) a + S1x128x16384.size a ≤ S1x128x16384.size a
  h_S1x128x16384 : 0 < S1x128x16384.numel
  shapeCasts_S1x128x16384_S128x16384 : S1x128x16384.ShapeCasts S128x16384
  bitsLt_bf16_f32 : FTy.bits .bf16 < FTy.bits .f32
  inb_S1x19x16384_S1x19x16384_0_0_0 : ∀ a, (![0, 0, 0] : Fin 3 → Nat) a + S1x19x16384.size a ≤ S1x19x16384.size a
  h_S1x19x16384 : 0 < S1x19x16384.numel
  shapeCasts_S1x19x16384_S19x16384 : S1x19x16384.ShapeCasts S19x16384
  inb_S1x128x19x1_S1x128x19x1_0_0_0_0 : ∀ a, (![0, 0, 0, 0] : Fin 4 → Nat) a + S1x128x19x1.size a ≤ S1x128x19x1.size a
  h_S1x128x19x1 : 0 < S1x128x19x1.numel
  shapeCasts_S1x128x19x1_S128x19 : S1x128x19x1.ShapeCasts S128x19
  shapeCasts_S128x19_S1x128x19x1 : S128x19.ShapeCasts S1x128x19x1
  dot_S128x16384_S19x16384_S128x19_1_1_0_0_n_n_wf : DotDims.WF S128x16384 S19x16384 S128x19 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16384.size a ≤ S16x512x16384.size a
  hwx0_0 : ∀ i : grid0.Coords, EltTy.bits .f32 = 32 ∨ (Rect.block (s := S16x512x16384) S1x128x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x19x16384.size a ≤ S16x19x16384.size a
  hwx0_1 : ∀ i : grid0.Coords, EltTy.bits .f32 = 32 ∨ (Rect.block (s := S16x19x16384) S1x19x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x19x1.size a ≤ S16x512x19x1.size a
  hwx0_2 : ∀ i : grid0.Coords, EltTy.bits .f32 = 32 ∨ (Rect.block (s := S16x512x19x1) S1x128x19x1.size (cc0_transform_2 i) (hinb0_2 i)).WholeWords (EltTy.packing .f32)

variable [Facts₀]

def dot_S128x16384_S19x16384_S128x19_1_1_0_0_n_n : DotDims S128x16384 S19x16384 S128x19 where
  lhsContracting := [1]
  rhsContracting := [1]
  lhsNonContracting := [0]
  rhsNonContracting := [0]
  lhsBatch := []
  rhsBatch := []
  wf := dot_S128x16384_S19x16384_S128x19_1_1_0_0_n_n_wf

abbrev win0_0 : Pipeline.Window sig grid0 :=
  Pipeline.Window.ofSpec (Memref.whole main_v15) S1x128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x19x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128x19x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x512x128x128 : Shape := ⟨4, ![16, 512, 128, 128]⟩
abbrev S16x128x128 : Shape := ⟨3, ![16, 128, 128]⟩
abbrev S16x16384 : Shape := ⟨2, ![16, 16384]⟩
abbrev S_ : Shape := ⟨0, ![]⟩
abbrev S16x16384x1 : Shape := ⟨3, ![16, 16384, 1]⟩
abbrev S1x1x19 : Shape := ⟨3, ![1, 1, 19]⟩
abbrev S16x16384x19 : Shape := ⟨3, ![16, 16384, 19]⟩
abbrev S16x19x16384 : Shape := ⟨3, ![16, 19, 16384]⟩
abbrev S16x1x16384 : Shape := ⟨3, ![16, 1, 16384]⟩
abbrev S16x19 : Shape := ⟨2, ![16, 19]⟩
abbrev S16x19x1 : Shape := ⟨3, ![16, 19, 1]⟩
abbrev S16x512x16384 : Shape := ⟨3, ![16, 512, 16384]⟩
abbrev S16x19x512 : Shape := ⟨3, ![16, 19, 512]⟩
abbrev S16x512x19 : Shape := ⟨3, ![16, 512, 19]⟩
abbrev S16x512x19x1 : Shape := ⟨4, ![16, 512, 19, 1]⟩

abbrev nBuf : Space → Nat
  | .hbm => 43
  | .vmem => 0
  | .smem => 0
  | _ => 0

abbrev bufTy : (tb : Table) → Fin (tcTables nBuf tb) → BufTy
  | .hbm, ⟨0, _⟩ => ⟨S16x512x128x128, .f32⟩
  | .hbm, ⟨1, _⟩ => ⟨S16x128x128, .i32⟩
  | .hbm, ⟨2, _⟩ => ⟨S16x16384, .i32⟩
  | .hbm, ⟨3, _⟩ => ⟨S_, .i32⟩
  | .hbm, ⟨4, _⟩ => ⟨S16x16384, .i32⟩
  | .hbm, ⟨5, _⟩ => ⟨S16x16384, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S16x16384, .i32⟩
  | .hbm, ⟨10, _⟩ => ⟨S16x16384, .i32⟩
  | .hbm, ⟨11, _⟩ => ⟨S_, .i32⟩
  | .hbm, ⟨12, _⟩ => ⟨S16x16384, .i32⟩
  | .hbm, ⟨13, _⟩ => ⟨S16x16384, .i32⟩
  | .hbm, ⟨14, _⟩ => ⟨S16x16384x1, .i32⟩
  | .hbm, ⟨15, _⟩ => ⟨S1x1x19, .i32⟩
  | .hbm, ⟨16, _⟩ => ⟨S16x16384x19, .i32⟩
  | .hbm, ⟨17, _⟩ => ⟨S16x16384x19, .i32⟩
  | .hbm, ⟨18, _⟩ => ⟨S16x16384x19, .i1⟩
  | .hbm, ⟨19, _⟩ => ⟨S16x16384x19, .f32⟩
  | .hbm, ⟨20, _⟩ => ⟨S16x19x16384, .f32⟩
  | .hbm, ⟨21, _⟩ => ⟨S16x1x16384, .i1⟩
  | .hbm, ⟨22, _⟩ => ⟨S_, .f32⟩
  | .hbm, ⟨23, _⟩ => ⟨S_, .f32⟩
  | .hbm, ⟨24, _⟩ => ⟨S16x19x16384, .i1⟩
  | .hbm, ⟨25, _⟩ => ⟨S16x19x16384, .f32⟩
  | .hbm, ⟨26, _⟩ => ⟨S16x19x16384, .f32⟩
  | .hbm, ⟨27, _⟩ => ⟨S_, .f32⟩
  | .hbm, ⟨28, _⟩ => ⟨S16x19, .f32⟩
  | .hbm, ⟨29, _⟩ => ⟨S16x19x1, .f32⟩
  | .hbm, ⟨30, _⟩ => ⟨S_, .f32⟩
  | .hbm, ⟨31, _⟩ => ⟨S16x19x1, .f32⟩
  | .hbm, ⟨32, _⟩ => ⟨S16x19x1, .i1⟩
  | .hbm, ⟨33, _⟩ => ⟨S_, .f32⟩
  | .hbm, ⟨34, _⟩ => ⟨S_, .f32⟩
  | .hbm, ⟨35, _⟩ => ⟨S16x19x1, .f32⟩
  | .hbm, ⟨36, _⟩ => ⟨S16x19x1, .f32⟩
  | .hbm, ⟨37, _⟩ => ⟨S16x19x16384, .f32⟩
  | .hbm, ⟨38, _⟩ => ⟨S16x19x16384, .f32⟩
  | .hbm, ⟨39, _⟩ => ⟨S16x512x16384, .f32⟩
  | .hbm, ⟨40, _⟩ => ⟨S16x19x512, .f32⟩
  | .hbm, ⟨41, _⟩ => ⟨S16x512x19, .f32⟩
  | .hbm, ⟨42, _⟩ => ⟨S16x512x19x1, .f32⟩
  | _, _ => ⟨S16x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_c_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_cst_4 : Ref sig .tc := ⟨.hbm, 33, rfl⟩
abbrev main_call3_v0 : Ref sig .tc := ⟨.hbm, 34, rfl⟩
abbrev main_call3_v1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩

abbrev nD : Nat := 1
abbrev τ : Topo := Topo.v7x

variable {F : FTy → Type} [FloatOps F]

class Facts₀ : Prop where
  shapeCasts_S16x128x128_S16x16384 : S16x128x128.ShapeCasts S16x16384
  bcast_S_S16x16384 : S_.BroadcastsInDim S16x16384 (![] : Fin 0 → Fin S16x16384.rank)
  bcast_S16x16384_S16x16384x1_0_1 : S16x16384.BroadcastsInDim S16x16384x1 (![0, 1] : Fin 2 → Fin S16x16384x1.rank)
  bcast_S16x16384x1_S16x16384x19_0_1_2 : S16x16384x1.BroadcastsInDim S16x16384x19 (![0, 1, 2] : Fin 3 → Fin S16x16384x19.rank)
  bcast_S1x1x19_S16x16384x19_0_1_2 : S1x1x19.BroadcastsInDim S16x16384x19 (![0, 1, 2] : Fin 3 → Fin S16x16384x19.rank)
  transposes_S16x16384x19_S16x19x16384_0_2_1 : S16x16384x19.Transposes [0, 2, 1] S16x19x16384
  bcast_S16x16384_S16x1x16384_0_2 : S16x16384.BroadcastsInDim S16x1x16384 (![0, 2] : Fin 2 → Fin S16x1x16384.rank)
  bcast_S16x1x16384_S16x19x16384_0_1_2 : S16x1x16384.BroadcastsInDim S16x19x16384 (![0, 1, 2] : Fin 3 → Fin S16x19x16384.rank)
  bcast_S_S16x19x16384 : S_.BroadcastsInDim S16x19x16384 (![] : Fin 0 → Fin S16x19x16384.rank)
  reducesTo_S16x19x16384_S16x19_d2 : S16x19x16384.ReducesTo [2] S16x19
  h_S_ : 0 < S_.numel
  bcast_S16x19_S16x19x1_0_1 : S16x19.BroadcastsInDim S16x19x1 (![0, 1] : Fin 2 → Fin S16x19x1.rank)
  bcast_S_S16x19x1 : S_.BroadcastsInDim S16x19x1 (![] : Fin 0 → Fin S16x19x1.rank)
  bcast_S16x19x1_S16x19x16384_0_1_2 : S16x19x1.BroadcastsInDim S16x19x16384 (![0, 1, 2] : Fin 3 → Fin S16x19x16384.rank)
  shapeCasts_S16x512x128x128_S16x512x16384 : S16x512x128x128.ShapeCasts S16x512x16384
  transposes_S16x19x512_S16x512x19_0_2_1 : S16x19x512.Transposes [0, 2, 1] S16x512x19
  bcast_S16x512x19_S16x512x19x1_0_1_2 : S16x512x19.BroadcastsInDim S16x512x19x1 (![0, 1, 2] : Fin 3 → Fin S16x512x19x1.rank)
  dot_S16x19x16384_S16x512x16384_S16x19x512_2_2_1_1_0_0_wf : DotDims.WF S16x19x16384 S16x512x16384 S16x19x512 [2] [2] [1] [1] [0] [0]

variable [Facts₀]

def dot_S16x19x16384_S16x512x16384_S16x19x512_2_2_1_1_0_0 : DotDims S16x19x16384 S16x512x16384 S16x19x512 where
  lhsContracting := [2]
  rhsContracting := [2]
  lhsNonContracting := [1]
  rhsNonContracting := [1]
  lhsBatch := [0]
  rhsBatch := [0]
  wf := dot_S16x19x16384_S16x512x16384_S16x19x512_2_2_1_1_0_0_wf

class Facts : Prop extends Facts₀ where

variable [Facts]
-- ==== Proof.Pooled.lean ====
/-
  Class-conditional pooling as ONE function of the two arrays the pooling step reads.

  With the spatial axes merged into one pixel axis n (16384 pixels), the features are x[b, c, n] and the
  mean-pooling weights are w[b, k, n] (for every batch b and class k, a one-hot class mask over the pixels
  divided by the class's pixel count). The pooled feature of channel c for class k is

      pooled x w [b, c, k, 0]  =  ∑ₙ x[b, c, n] · w[b, k, n]

  on the extended reals. Both programs compute exactly this from the same x and w: one as a product
  x · w summed over the pixels block by block of 128 channels, the other as the product w · x summed over
  the pixels for all channels at once and then transposed. Multiplication of extended reals commutes, so
  the two agree factor by factor, with no condition on the values.
-/
import Idealize.ShloMosaic.PureOps.Ideal
import Idealize.ShloMosaic.Lib.ValueIdx

noncomputable section

open Idealize.ShloMosaic Idealize.ShloMosaic.ValueIdx

namespace Cert.Pooling

/-- Features, spatial axes merged: batch × channel × pixel. -/
abbrev SFeat : Shape := ⟨3, ![16, 512, 16384]⟩
/-- Mean-pooling weights: batch × class × pixel. -/
abbrev SWt : Shape := ⟨3, ![16, 19, 16384]⟩
/-- Pooled features: batch × channel × class × 1. -/
abbrev SPool : Shape := ⟨4, ![16, 512, 19, 1]⟩

/-- The pooled feature of channel `c` for class `k` in batch `b`: the pixel sum of feature times weight. -/
def pooledAt (x : FVec Ideal SFeat .f32) (w : FVec Ideal SWt .f32) (b : Fin 16) (c : Fin 512) (k : Fin 19) : EReal :=
  ∑ n : Fin 16384, x (ix3 b c n) * w (ix3 b k n)

/-- The whole pooled array: its trailing axis has one entry. -/
def pooled (x : FVec Ideal SFeat .f32) (w : FVec Ideal SWt .f32) : FVec Ideal SPool .f32 :=
  fun i => pooledAt x w ⟨(i 0).val, (i 0).isLt⟩ ⟨(i 1).val, (i 1).isLt⟩ ⟨(i 2).val, (i 2).isLt⟩

theorem pooled_apply (x : FVec Ideal SFeat .f32) (w : FVec Ideal SWt .f32) (b : Fin 16) (c : Fin 512) (k : Fin 19) (u : Fin 1) :
    pooled x w (ix4 b c k u) = pooledAt x w b c k := rfl

end Cert.Pooling

end
-- ==== Proof.LibUnitEnds.lean ====
/-
  A matrix cast to a rank-4 array with a unit axis at each end.

  A kernel that stores a matrix result into a block of shape [1, a, b, 1] casts the [a, b] matrix to that
  shape first. Row-major positions agree, (((u·a + i)·b + j)·1 + v) = i·b + j when u = v = 0, so the cast
  read at (u, i, j, v) is the matrix at (i, j). The statement is generic in the two extents and the element type.
-/
import Idealize.ShloMosaic.Lib.ValueIdx
import Idealize.ShloMosaic.Lib.Pipeline.Value

namespace Idealize.ShloMosaic.ValueIdx

open Idealize.ShloMosaic

/-- An `[a, b]` array cast to `[1, a, b, 1]` reads, at `(u, i, j, v)`, the operand at `(i, j)`, whatever the two
    unit coordinates. -/
theorem shapeCast_ab_1ab1_apply {α : Type} {a b : ℕ} (x : (⟨2, ![a, b]⟩ : Shape).Idx → α)
    (h : (⟨2, ![a, b]⟩ : Shape).ShapeCasts ⟨4, ![1, a, b, 1]⟩) (u : Fin 1) (i : Fin a) (j : Fin b) (v : Fin 1) :
    shapeCast ⟨4, ![1, a, b, 1]⟩ x h (ix4 u i j v) = x (ix2 i j) :=
  shapeCast_apply x h _ _ (by
    have hu : u.val = 0 := by omega
    have hv : v.val = 0 := by omega
    rw [Shape.rowMajor_val_four, Shape.rowMajor_val_two]
    show i.val * b + j.val = ((u.val * a + i.val) * b + j.val) * 1 + v.val
    rw [hu, hv, Nat.zero_mul, Nat.zero_add, Nat.mul_one, Nat.add_zero])

end Idealize.ShloMosaic.ValueIdx
-- ==== Proof.Payload.lean ====
/-
  What one grid point's body stores, entry by entry.

  The body loads a block of features x[0, r, n] (128 channels × 16384 pixels) and a block of weights
  w[0, k, n] (19 classes × 16384 pixels), drops the leading unit axis of each, narrows both to bf16 (at the
  ideal instance a change of float format is the identity), multiplies them contracting the pixel axis into a
  zero accumulator, and casts the [128, 19] product to the block's shape [1, 128, 19, 1]. So the stored value
  at (u, r, k, v) is ∑ₙ x[0, r, n] · w[0, k, n].
-/
import proofs.«108503_j24910810317446_1_alg».proof.Proof.Gen.KernelIdeal.Skeleton
import proofs.«108503_j24910810317446_1_alg».proof.Proof.LibUnitEnds
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-! ## The product's operand indices: output (r, k) and pixel n read the features at (r, n), the weights at (k, n) -/

theorem lhs_axis0 (i : S128x19.Idx) (q : dot_S128x16384_S19x16384_S128x19_1_1_0_0_n_n.contr.Idx) :
    (dot_S128x16384_S19x16384_S128x19_1_1_0_0_n_n.lhsIdx i q 0).val = (i 0).val := by
  unfold DotDims.lhsIdx
  rw [dif_neg (show ¬(0 : Fin S128x16384.rank) ∈ dot_S128x16384_S19x16384_S128x19_1_1_0_0_n_n.lhsBatch by decide), dif_pos (show (0 : Fin S128x16384.rank) ∈ dot_S128x16384_S19x16384_S128x19_1_1_0_0_n_n.lhsNonContracting by decide)]
  rfl
theorem lhs_axis1 (i : S128x19.Idx) (q : dot_S128x16384_S19x16384_S128x19_1_1_0_0_n_n.contr.Idx) :
    (dot_S128x16384_S19x16384_S128x19_1_1_0_0_n_n.lhsIdx i q 1).val = (q ⟨0, by decide⟩).val :=
  dot_S128x16384_S19x16384_S128x19_1_1_0_0_n_n.lhsIdx_val_of_single rfl i q
theorem rhs_axis0 (i : S128x19.Idx) (q : dot_S128x16384_S19x16384_S128x19_1_1_0_0_n_n.contr.Idx) :
    (dot_S128x16384_S19x16384_S128x19_1_1_0_0_n_n.rhsIdx i q 0).val = (i 1).val := by
  unfold DotDims.rhsIdx
  rw [dif_neg (show ¬(0 : Fin S19x16384.rank) ∈ dot_S128x16384_S19x16384_S128x19_1_1_0_0_n_n.rhsBatch by decide), dif_pos (show (0 : Fin S19x16384.rank) ∈ dot_S128x16384_S19x16384_S128x19_1_1_0_0_n_n.rhsNonContracting by decide)]
  rfl
theorem rhs_axis1 (i : S128x19.Idx) (q : dot_S128x16384_S19x16384_S128x19_1_1_0_0_n_n.contr.Idx) :
    (dot_S128x16384_S19x16384_S128x19_1_1_0_0_n_n.rhsIdx i q 1).val = (q ⟨0, by decide⟩).val :=
  dot_S128x16384_S19x16384_S128x19_1_1_0_0_n_n.rhsIdx_val_of_single rfl i q

/-- The product of a [128, 16384] matrix with a [19, 16384] matrix over the shared pixel axis, into a zero
    accumulator, at (r, k): the pixel sum of the two rows' products. -/
theorem product_apply (a : FVec Ideal S128x16384 .bf16) (b : FVec Ideal S19x16384 .bf16) (r : Fin 128) (k : Fin 19) :
    matmul dot_S128x16384_S19x16384_S128x19_1_1_0_0_n_n none a b (constant (F := Ideal) S128x19 .f32 0x00000000#32) (ix2 r k)
      = ∑ n : Fin 16384, a (ix2 r n) * b (ix2 k n) := by
  refine (Ideal.matmul_constant_zero_apply dot_S128x16384_S19x16384_S128x19_1_1_0_0_n_n none a b (ix2 r k)).trans ?_
  rw [← Equiv.sum_comp (ValueIdx.contrEquiv1 dot_S128x16384_S19x16384_S128x19_1_1_0_0_n_n 16384 rfl rfl).symm]
  refine Finset.sum_congr rfl fun n _ => ?_
  have hn := ValueIdx.contrEquiv1_symm_val dot_S128x16384_S19x16384_S128x19_1_1_0_0_n_n 16384 rfl rfl n
  have el : dot_S128x16384_S19x16384_S128x19_1_1_0_0_n_n.lhsIdx (ix2 r k) ((ValueIdx.contrEquiv1 dot_S128x16384_S19x16384_S128x19_1_1_0_0_n_n 16384 rfl rfl).symm n) = ix2 r n := funext fun ax => Fin.ext (by
    match ax with
    | ⟨0, _⟩ => exact lhs_axis0 _ _
    | ⟨1, _⟩ => exact (lhs_axis1 _ _).trans hn)
  have er : dot_S128x16384_S19x16384_S128x19_1_1_0_0_n_n.rhsIdx (ix2 r k) ((ValueIdx.contrEquiv1 dot_S128x16384_S19x16384_S128x19_1_1_0_0_n_n 16384 rfl rfl).symm n) = ix2 k n := funext fun ax => Fin.ext (by
    match ax with
    | ⟨0, _⟩ => exact rhs_axis0 _ _
    | ⟨1, _⟩ => exact (rhs_axis1 _ _).trans hn)
  rw [el, er]

/-- The stored value at (u, r, k, v): the pixel sum of feature row r times weight row k of the two loaded blocks. -/
theorem stored_apply (x : Vec Ideal S1x128x16384 .f32) (w : Vec Ideal S1x19x16384 .f32)
    (u : Fin 1) (r : Fin 128) (k : Fin 19) (v : Fin 1) :
    k0_pay1 (F := Ideal) x w (ix4 u r k v) = ∑ n : Fin 16384, x (ix3 (0 : Fin 1) r n) * w (ix3 (0 : Fin 1) k n) := by
  unfold k0_pay1
  refine (shapeCast_ab_1ab1_apply _ _ u r k v).trans ?_
  refine (product_apply _ _ r k).trans ?_
  refine Finset.sum_congr rfl fun n _ => ?_
  rw [truncf_apply, truncf_apply, shapeCast_1ab_ab_apply, shapeCast_1ab_ab_apply]

end Cert.KernelIdeal.Payload

end
-- ==== Proof.Blocks.lean ====
/-
  From one grid point's block to the whole pooled array.

  The grid has 16 × 4 points (b, q): batch b and channel block q of 128 channels. At point (b, q) the body reads
  features x[b, 128·q + r, n] and weights w[b, k, n] (the weights block does not move with q) and writes the
  output block [b, 128·q + r, k, 0]. By the stored value read entry by entry, that block is the pooled array of
  x and w read through the block's rectangle; the 64 blocks tile the array (channel c lies in block c / 128), so
  the array after the run is the pooled array of the two arrays the region is entered with.
-/
import proofs.«108503_j24910810317446_1_alg».proof.Proof.Gen.KernelIdeal.Value
import proofs.«108503_j24910810317446_1_alg».proof.Proof.Payload
import proofs.«108503_j24910810317446_1_alg».proof.Proof.Pooled
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value Cert.Pooling

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The three index maps over the grid: the feature block moves with the output block on the batch and channel-block
    axes, the weights block on the batch axis only, and every other block index is 0. -/
theorem idx_facts : ∀ t : Fin cfg0.N,
    win0_0.index t (0 : Fin 3) = win0_2.index t (0 : Fin 4)
    ∧ win0_0.index t (1 : Fin 3) = win0_2.index t (1 : Fin 4)
    ∧ win0_0.index t (2 : Fin 3) = 0
    ∧ win0_1.index t (0 : Fin 3) = win0_2.index t (0 : Fin 4)
    ∧ win0_1.index t (1 : Fin 3) = 0
    ∧ win0_1.index t (2 : Fin 3) = 0
    ∧ win0_2.index t (2 : Fin 4) = 0
    ∧ win0_2.index t (3 : Fin 4) = 0
    ∧ win0_2.index t (0 : Fin 4) ≤ 15
    ∧ win0_2.index t (1 : Fin 4) ≤ 3 :=
  (by decide +kernel : ∀ t : Fin grid0.N, _)

/-- Every (batch, channel block) pair is some grid point's output block. -/
theorem idx_onto : ∀ (q0 : Fin 16) (q1 : Fin 4), ∃ t : Fin cfg0.N, win0_2.index t = ![q0.val, q1.val, 0, 0] :=
  (by decide +kernel : ∀ (q0 : Fin 16) (q1 : Fin 4), ∃ t : Fin grid0.N, win0_2.index t = ![q0.val, q1.val, 0, 0])

/-- The feature block at point `t`, entry (u, r, n), is the feature array at the index whose coordinates are the
    block's offsets plus (u, r, n). -/
theorem feat_block (c : Dev nD) (t : Fin cfg0.N) (u : Fin 1) (r : Fin 128) (n : Fin 16384) (I : SFeat.Idx)
    (h0 : (I 0).val = win0_0.index t (0 : Fin 3) * 1 + u.val)
    (h1 : (I 1).val = win0_0.index t (1 : Fin 3) * 128 + r.val)
    (h2 : (I 2).val = win0_0.index t (2 : Fin 3) * 16384 + n.val) :
    (iblk m c 0 t : Vec Ideal S1x128x16384 .f32) (ix3 u r n) = (V m c main_v15 : FVec Ideal SFeat .f32) I := by
  unfold iblk
  rw [View.read_apply]
  show V m c main_v15 _ = V m c main_v15 _
  refine congrArg (V m c main_v15) ?_
  funext a
  apply Fin.ext
  match a with
  | ⟨0, _⟩ => show win0_0.index t (0 : Fin 3) * 1 + 1 * u.val = (I 0).val; omega
  | ⟨1, _⟩ => show win0_0.index t (1 : Fin 3) * 128 + 1 * r.val = (I 1).val; omega
  | ⟨2, _⟩ => show win0_0.index t (2 : Fin 3) * 16384 + 1 * n.val = (I 2).val; omega

/-- The weights block at point `t`, entry (u, k, n), likewise. -/
theorem wts_block (c : Dev nD) (t : Fin cfg0.N) (u : Fin 1) (k : Fin 19) (n : Fin 16384) (I : SWt.Idx)
    (h0 : (I 0).val = win0_1.index t (0 : Fin 3) * 1 + u.val)
    (h1 : (I 1).val = win0_1.index t (1 : Fin 3) * 19 + k.val)
    (h2 : (I 2).val = win0_1.index t (2 : Fin 3) * 16384 + n.val) :
    (iblk m c 1 t : Vec Ideal S1x19x16384 .f32) (ix3 u k n) = (V m c main_v14 : FVec Ideal SWt .f32) I := by
  unfold iblk
  rw [View.read_apply]
  show V m c main_v14 _ = V m c main_v14 _
  refine congrArg (V m c main_v14) ?_
  funext a
  apply Fin.ext
  match a with
  | ⟨0, _⟩ => show win0_1.index t (0 : Fin 3) * 1 + 1 * u.val = (I 0).val; omega
  | ⟨1, _⟩ => show win0_1.index t (1 : Fin 3) * 19 + 1 * k.val = (I 1).val; omega
  | ⟨2, _⟩ => show win0_1.index t (2 : Fin 3) * 16384 + 1 * n.val = (I 2).val; omega

/-- WHAT POINT `t` WRITES BACK is block `t` of the pooled array of the two arrays the region is entered with. -/
theorem flushed_eq (c : Dev nD) (t : Fin cfg0.N) :
    (dats m 0 c).flushed 2 t
      = ((cfg0.win 2).blk t).view.read (Elt Ideal) (pooled (V m c main_v15) (V m c main_v14)) := by
  rw [flushed2]
  unfold out0_2
  rw [View.canon_unit_zero hz4]
  simp only [View.ld_unit_zero (S := S1x128x16384) hz3, View.ld_unit_zero (S := S1x19x16384) hz3]
  obtain ⟨e00, e01, e02, e10, e11, e12, e22, e23, b0, b1⟩ := idx_facts t
  funext j
  obtain ⟨u, r, k, v, rfl⟩ : ∃ (u : Fin 1) (r : Fin 128) (k : Fin 19) (v : Fin 1), j = ix4 u r k v :=
    ⟨j 0, j 1, j 2, j 3, eq_ix4 j⟩
  have hu : u.val = 0 := by omega
  have hv : v.val = 0 := by omega
  rw [View.read_apply]
  -- the block is not clipped, so the write-back's re-indexing of the staged block is the identity
  have hx : (win0 2).xinj (grid0.coords t) (ix4 u r k v) = (ix4 u r k v : S1x128x19x1.Idx) :=
    funext fun a => Fin.ext rfl
  refine (congrArg (k0_pay1 (F := Ideal) (iblk m c 0 t) (iblk m c 1 t)) hx).trans ?_
  refine (Payload.stored_apply (iblk m c 0 t) (iblk m c 1 t) u r k v).trans ?_
  -- the read's change of element type is the identity here; the pooled array is kept closed while it is dropped
  generalize hG : pooled (V m c main_v15) (V m c main_v14) = G
  show _ = G (((View.whole main_v16).slice ((win0 2).rect t)).emb (ix4 u r k v))
  subst hG
  unfold pooled pooledAt
  refine Finset.sum_congr rfl fun n _ => ?_
  refine congrArg₂ (· * ·) (feat_block m c t 0 r n _ ?_ ?_ ?_) (wts_block m c t 0 k n _ ?_ ?_ ?_)
  · show win0_2.index t (0 : Fin 4) * 1 + 1 * u.val = win0_0.index t (0 : Fin 3) * 1 + (0 : Fin 1).val
    show _ = _ + 0
    omega
  · show win0_2.index t (1 : Fin 4) * 128 + 1 * r.val = win0_0.index t (1 : Fin 3) * 128 + r.val
    omega
  · show n.val = win0_0.index t (2 : Fin 3) * 16384 + n.val
    omega
  · show win0_2.index t (0 : Fin 4) * 1 + 1 * u.val = win0_1.index t (0 : Fin 3) * 1 + (0 : Fin 1).val
    show _ = _ + 0
    omega
  · show win0_2.index t (2 : Fin 4) * 19 + 1 * k.val = win0_1.index t (1 : Fin 3) * 19 + k.val
    omega
  · show n.val = win0_1.index t (2 : Fin 3) * 16384 + n.val
    omega

/-- An index of the output array is in point `t`'s block iff each coordinate is in the block's range on its axis. -/
theorem mem_blk (t : Fin cfg0.N) (i : S16x512x19x1.Idx) :
    i ∈ ((cfg0.win 2).blk t).view.set
      ↔ ∀ a : Fin 4, win0_2.index t a * S1x128x19x1.size a ≤ (i a).val
          ∧ (i a).val < win0_2.index t a * S1x128x19x1.size a + S1x128x19x1.size a := by
  show i ∈ ((View.whole main_v16).slice (win0_2.rect t)).set ↔ _
  rw [View.set_slice_whole, Rect.mem_set_unit]
  exact Iff.rfl

/-- The 64 output blocks tile the array: the index [b, c, k, 0] lies in the block of batch b and channel block c / 128. -/
theorem covered (i : S16x512x19x1.Idx) :
    ∃ t : Fin cfg0.N, (cfg0.win 2).flush t = true ∧ i ∈ ((cfg0.win 2).blk t).view.set := by
  have hi0 : (i 0).val < 16 := (i 0).isLt
  have hi1 : (i 1).val < 512 := (i 1).isLt
  have hi2 : (i 2).val < 19 := (i 2).isLt
  have hi3 : (i 3).val < 1 := (i 3).isLt
  obtain ⟨t, ht⟩ := idx_onto ⟨(i 0).val, hi0⟩ ⟨(i 1).val / 128, by omega⟩
  have q0 : win0_2.index t (0 : Fin 4) = (i 0).val := congrFun ht 0
  have q1 : win0_2.index t (1 : Fin 4) = (i 1).val / 128 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 19 ≤ (i 2).val ∧ (i 2).val < win0_2.index t (2 : Fin 4) * 19 + 19; omega
  | ⟨3, _⟩ => show win0_2.index t (3 : Fin 4) * 1 ≤ (i 3).val ∧ (i 3).val < win0_2.index t (3 : Fin 4) * 1 + 1; omega

/-- THE ARRAY after the run: the pooled array of the features and weights the region is entered with. -/
theorem final (c : Dev nD) : (dats m 0 c).arrAt 2 cfg0.N = pooled (V m c main_v15) (V m c main_v14) :=
  (dats m 0 c).arrAt_eq_of_cover 2 (pooled (V m c main_v15) (V m c main_v14)) (fun t _ => flushed_eq m c t) covered

/-- The kernel's run, read: the result array at the pooled array, the arguments unchanged. -/
theorem run : θ_run defs (onTc (τ := τ) (main (F := Ideal))) ⟨m, fun _ => 0, ρ⟩ fun r => ∀ c : Dev nD,
      r.2.mem ((c : Thread nD τ).loc main_v16) = pooled (V m c main_v15) (V m c main_v14)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.HostPrefix.lean ====
/-
  The two arrays the pooling step reads are the same functions of the arguments in both programs.

  Before the pooling step the kernel's program applies to its arguments, operation for operation, the
  reference's own first operations: the labels reshaped to one pixel axis, compared with the ignore label,
  clipped to the class range, turned into one-hot rows, transposed, masked, summed per class, and divided by
  the guarded sum; and the features reshaped to one pixel axis. So the array it stages as weights is the
  reference's weights stage of the label argument, and the array it stages as features is the reference's
  reshape of the feature argument. Neither chain is opened: each side is the same composition of the same
  operations, for any float family.
-/
import proofs.«108503_j24910810317446_1_alg».proof.Proof.Gen.KernelIdeal.Frame
import proofs.«108503_j24910810317446_1_alg».proof.Proof.RefRead
import Idealize.ShloMosaic.Lib.StableHlo.Run

noncomputable section

open Idealize.ShloMosaic Idealize.ShloMosaic.TcCoe Idealize.SL.Sem

namespace Cert.KernelIdeal.Staged

open Cert.KernelIdeal Cert.KernelIdeal.Gen

variable {F : FTy → Type} [FloatOps F]
variable (m : (ℓ : Loc nD τ sig) → Buf (Elt F) ℓ)

/-- The features as the pooling step finds them: the reference's reshape of the feature argument. -/
theorem feat_eq (c : Dev nD) :
    (V m c main_v15 : S16x512x16384.Idx → Elt F .f32)
      = Cert.ReferenceIdeal.ReadP.val_main_v15 (F := F) (m ((c : Thread nD τ).loc main_arg0)) := by
  dsimp only [Gen.V]
  simp only [hostOps0, hostOps0_1, hostOps0_2, hostOps0_3, hostOps0_4, hostOps0_5, hostOps0_6, hostOps0_7,
    List.flatten_cons, List.flatten_nil, List.append_nil, List.cons_append, List.nil_append]
  after_results
  rfl

set_option maxRecDepth 8192 in
set_option maxHeartbeats 2000000 in
/-- The weights as the pooling step finds them: the reference's weights stage of the label argument. (Several
    intermediate results have two consumers, the masked one-hot rows feeding both the quotient and the per-class
    count, so the operations' results are read off in one pass that visits each shared result once.) -/
theorem wts_eq (c : Dev nD) :
    (V m c main_v14 : S16x19x16384.Idx → Elt F .f32)
      = Cert.ReferenceIdeal.ReadP.val_main_v14 (F := F) (m ((c : Thread nD τ).loc main_arg1)) := by
  dsimp only [Gen.V]
  simp only [hostOps0, hostOps0_1, hostOps0_2, hostOps0_3, hostOps0_4, hostOps0_5, hostOps0_6, hostOps0_7,
    List.flatten_cons, List.flatten_nil, List.append_nil, List.cons_append, List.nil_append]
  after_results_simp <;> rfl

end Cert.KernelIdeal.Staged

end
-- ==== Proof.RefPooled.lean ====
/-
  The reference computes the pooled array.

  Its last three operations are a batched product of the weights w[b, k, n] with the features x[b, c, n],
  contracting the pixel axis (result indexed [b, k, c]), a transposition to [b, c, k], and a trailing unit
  axis. Read at an index [b, c, k, 0] that is ∑ₙ w[b, k, n] · x[b, c, n]; commuting each product gives the
  pooled array of x and w.
-/
import proofs.«108503_j24910810317446_1_alg».proof.Proof.RefRead
import proofs.«108503_j24910810317446_1_alg».proof.Proof.Pooled

noncomputable section

open Idealize.ShloMosaic Idealize.ShloMosaic.ValueIdx

namespace Cert.ReferenceIdeal.Pooled

open Cert.ReferenceIdeal Cert.ReferenceIdeal.ReadP Cert.Pooling

/-- The reference's result, as a function of the two arguments, is the pooled array of its own reshaped features
    and its own weights. -/
theorem result_eq (x0 : (⟨S16x512x128x128, .f32⟩ : BufTy).Contents (Elt Ideal)) (x1 : (⟨S16x128x128, .i32⟩ : BufTy).Contents (Elt Ideal)) :
    val_main_v18 (F := Ideal) x0 x1 = pooled (val_main_v15 (F := Ideal) x0) (val_main_v14 (F := Ideal) x1) := by
  funext i
  rw [val_main_v18_apply, val_main_v17_apply, val_main_v16_apply]
  unfold pooled pooledAt
  refine Finset.sum_congr rfl fun n _ => ?_
  -- the product's two operand indices at output [b, k, c] and pixel n, traced back through the transposition and the unit axis
  have er : ridx_main_v16 (idx_main_v17 (idx_main_v18 i)) n
      = ix3 (⟨(i 0).val, (i 0).isLt⟩ : Fin 16) (⟨(i 1).val, (i 1).isLt⟩ : Fin 512) n :=
    funext fun a => Fin.ext (by match a with | ⟨0, _⟩ => rfl | ⟨1, _⟩ => rfl | ⟨2, _⟩ => rfl)
  have el : lidx_main_v16 (idx_main_v17 (idx_main_v18 i)) n
      = ix3 (⟨(i 0).val, (i 0).isLt⟩ : Fin 16) (⟨(i 2).val, (i 2).isLt⟩ : Fin 19) n :=
    funext fun a => Fin.ext (by match a with | ⟨0, _⟩ => rfl | ⟨1, _⟩ => rfl | ⟨2, _⟩ => rfl)
  rw [mul_comm, er, el]

end Cert.ReferenceIdeal.Pooled

end
-- ==== Proof.lean ====
/-
  Class-conditional feature pooling: for each batch b and class k, the features x[b, c, ·] averaged over the pixels
  the label map assigns to class k (pixels carrying the ignore label dropped, an empty class averaged with
  divisor 1), laid out as [b, c, k, 0].

  Both programs first build, by the same operations on the label argument, the mean-pooling weights w[b, k, n]
  (a one-hot class mask over the 16384 pixels divided by the class's guarded pixel count) and merge the features'
  two spatial axes into the pixel axis n. Then

    * the kernel walks a 16 × 4 grid of (batch, block of 128 channels); at each point it multiplies the feature
      block by the weights block over the pixel axis, after narrowing both to bf16, which on the extended reals
      is the identity, and writes the [1, 128, 19, 1] output block;
    * the reference multiplies w by x over the pixel axis for all channels at once, transposes the class and
      channel axes and appends a unit axis.

  At every index [b, c, k, 0] the first is ∑ₙ x[b, c, n] · w[b, k, n] and the second ∑ₙ w[b, k, n] · x[b, c, n]: the
  same sum of the same products with each product's factors exchanged, equal because multiplication of extended
  reals commutes. No finiteness of the features is used, and the weights are never opened: they enter both sides
  as one function of the label argument.

  Modules: Pooled (the pooled array as one function of x and w), Payload (one grid point's stored block, entry by
  entry), Blocks (the blocks tile the output: the kernel's run ends at the pooled array), HostPrefix (the arrays the
  kernel stages are the reference's own x and w), RefPooled (the reference's result is the pooled array).
  Each program's termination without fault, its arguments unchanged, is its frame; the idealized kernel is the
  kernel's own text read on the extended reals, no operation rewritten.
-/
import proofs.«108503_j24910810317446_1_alg».proof.Defs
import proofs.«108503_j24910810317446_1_alg».proof.Proof.Gen.Kernel
import proofs.«108503_j24910810317446_1_alg».proof.Proof.Gen.Kernel.Skeleton
import proofs.«108503_j24910810317446_1_alg».proof.Proof.Gen.Kernel.Launch
import proofs.«108503_j24910810317446_1_alg».proof.Proof.Gen.Kernel.Points
import proofs.«108503_j24910810317446_1_alg».proof.Proof.Gen.Kernel.Frame
import proofs.«108503_j24910810317446_1_alg».proof.Proof.Gen.KernelIdeal
import proofs.«108503_j24910810317446_1_alg».proof.Proof.Gen.KernelIdeal.Skeleton
import proofs.«108503_j24910810317446_1_alg».proof.Proof.Gen.KernelIdeal.Launch
import proofs.«108503_j24910810317446_1_alg».proof.Proof.Gen.KernelIdeal.Points
import proofs.«108503_j24910810317446_1_alg».proof.Proof.Gen.KernelIdeal.Frame
import proofs.«108503_j24910810317446_1_alg».proof.Proof.Gen.ReferenceIdeal
import proofs.«108503_j24910810317446_1_alg».proof.Proof.Gen.Pre_finite_inputs
import proofs.«108503_j24910810317446_1_alg».proof.Proof.Gen.KernelIdeal.Value
import proofs.«108503_j24910810317446_1_alg».proof.Proof.RefRun
import proofs.«108503_j24910810317446_1_alg».proof.Proof.RefRead
import proofs.«108503_j24910810317446_1_alg».proof.Proof.Pooled
import proofs.«108503_j24910810317446_1_alg».proof.Proof.Blocks
import proofs.«108503_j24910810317446_1_alg».proof.Proof.HostPrefix
import proofs.«108503_j24910810317446_1_alg».proof.Proof.RefPooled
import Idealize.ShloMosaic.Adequacy
import Idealize.ShloMosaic.Init

noncomputable section

namespace Cert.Proof

open Idealize.ShloMosaic Idealize.ShloMosaic.TcCoe Idealize.SL.Sem

/-- The word-level kernel terminates without fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the features and the labels, both programs end with the pooled array of the
    reference's reshaped features and weights of those arguments: the kernel because its output blocks tile that
    array of the two arrays it stages, which are those; the reference because its product, transposed, is that
    array with each product's factors exchanged. -/
theorem algebraic : Cert.algebraic_KernelIdeal_ReferenceIdeal := by
  intro m ρ m' ρ' _ hagree
  refine ⟨fun c => Cert.Pooling.pooled
      (Cert.ReferenceIdeal.ReadP.val_main_v15 (F := Ideal) (m ((c.tc : Thread Cert.KernelIdeal.nD Cert.KernelIdeal.τ).loc Cert.KernelIdeal.main_arg0)))
      (Cert.ReferenceIdeal.ReadP.val_main_v14 (F := Ideal) (m ((c.tc : Thread Cert.KernelIdeal.nD Cert.KernelIdeal.τ).loc Cert.KernelIdeal.main_arg1))), ?_, ?_⟩
  · refine (θ_run Cert.KernelIdeal.defs _ _).mono (fun _ h c => ⟨(h c).1.trans ?_, (h c).2⟩) (Cert.KernelIdeal.Blocks.run m ρ)
    exact congrArg₂ Cert.Pooling.pooled (Cert.KernelIdeal.Staged.feat_eq m c) (Cert.KernelIdeal.Staged.wts_eq m c)
  · refine (θ_run Cert.ReferenceIdeal.defs _ _).mono (fun _ h c => ⟨(h c).1.trans ?_, (h c).2⟩)
      (Cert.ReferenceIdeal.ValueP.run (F := Ideal) m' ρ')
    refine (Cert.ReferenceIdeal.ReadP.val_main_v18_eq _ _).trans ?_
    rw [Cert.ReferenceIdeal.Pooled.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
